-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x25 : Shape := ⟨2, ![1600000, 25]⟩
abbrev S1600000 : Shape := ⟨1, ![1600000]⟩
abbrev S128x128 : Shape := ⟨2, ![128, 128]⟩
abbrev S25x128 : Shape := ⟨2, ![25, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x25 : S_.BroadcastsInDim S1600000x25 (![] : Fin 0 → Fin S1600000x25.rank)
  reducesTo_S1600000x25_S_d0_1 : S1600000x25.ReducesTo [0, 1] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S25x128 : S_.BroadcastsInDim S25x128 (![] : Fin 0 → Fin S25x128.rank)
  reducesTo_S25x128_S_d0_1 : S25x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S25x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S25x128 .f32 := Host.absf main_arg6
  let main_cst_6 : FVec F S_ .f32 := constant S_ .f32 0x7F800000#32
  let main_v20 : FVec F S25x128 .f32 := broadcastInDim S25x128 ![] bcast_S_S25x128 main_cst_6
  let main_v21 : IVec S25x128 1 := cmpf .olt main_v19 main_v20
  let main_c_7 : IVec S_ 1 := constantI S_ 1 1#1
  let main_v22 : IVec S_ 1 := (fun x v => Host.reduce IntOp.andi x v reducesTo_S25x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : FVec F S1600000x25 .f32) (main_arg2 : FVec F S1600000 .f32) (main_arg3 : IVec S1600000 32) (main_arg4 : IVec S1600000 32) (main_arg5 : FVec F S128x128 .f32) (main_arg6 : FVec F S25x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x25 .f32 := Host.absf main_arg1
  let main_cst_0 : FVec F S_ .f32 := constant S_ .f32 0x7F800000#32
  let main_v5 : FVec F S1600000x25 .f32 := broadcastInDim S1600000x25 ![] bcast_S_S1600000x25 main_cst_0
  let main_v6 : IVec S1600000x25 1 := cmpf .olt main_v4 main_v5
  let main_c_1 : IVec S_ 1 := constantI S_ 1 1#1
  let main_v7 : IVec S_ 1 := (fun x v => Host.reduce IntOp.andi x v reducesTo_S1600000x25_S_d0_1 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S1600000x25 : Shape := ⟨2, ![1600000, 25]⟩
abbrev S1600000 : Shape := ⟨1, ![1600000]⟩
abbrev S128x128 : Shape := ⟨2, ![128, 128]⟩
abbrev S25x128 : Shape := ⟨2, ![25, 128]⟩
abbrev S128 : Shape := ⟨1, ![128]⟩
abbrev S5000x128 : Shape := ⟨2, ![5000, 128]⟩
abbrev S1x128 : Shape := ⟨2, ![1, 128]⟩
abbrev S1600000x128 : Shape := ⟨2, ![1600000, 128]⟩
abbrev S16000x25 : Shape := ⟨2, ![16000, 25]⟩
abbrev S16000x128 : Shape := ⟨2, ![16000, 128]⟩
abbrev S_ : Shape := ⟨0, ![]⟩
abbrev S1600000x1 : Shape := ⟨2, ![1600000, 1]⟩

abbrev nBuf : Space → Nat
  | .hbm => 51
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S1600000x25, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S25x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1x128, .f32⟩
  | .hbm, ⟨14, _⟩ => ⟨S1x128, .f32⟩
  | .hbm, ⟨15, _⟩ => ⟨S1600000x128, .bf16⟩
  | .hbm, ⟨16, _⟩ => ⟨S_, .f32⟩
  | .hbm, ⟨17, _⟩ => ⟨S1600000, .f32⟩
  | .hbm, ⟨18, _⟩ => ⟨S1600000, .f32⟩
  | .hbm, ⟨19, _⟩ => ⟨S1600000, .f32⟩
  | .hbm, ⟨20, _⟩ => ⟨S_, .f32⟩
  | .hbm, ⟨21, _⟩ => ⟨S1600000, .f32⟩
  | .hbm, ⟨22, _⟩ => ⟨S1600000, .f32⟩
  | .hbm, ⟨23, _⟩ => ⟨S_, .f32⟩
  | .hbm, ⟨24, _⟩ => ⟨S1600000, .f32⟩
  | .hbm, ⟨25, _⟩ => ⟨S1600000, .f32⟩
  | .hbm, ⟨26, _⟩ => ⟨S_, .f32⟩
  | .hbm, ⟨27, _⟩ => ⟨S1600000, .f32⟩
  | .hbm, ⟨28, _⟩ => ⟨S1600000, .i1⟩
  | .hbm, ⟨29, _⟩ => ⟨S1600000, .f32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S1600000x1, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S50000x128, .f32⟩
  | .hbm, ⟨47, _⟩ => ⟨S1600000x1, .i32⟩
  | .hbm, ⟨48, _⟩ => ⟨S50000x128, .f32⟩
  | .hbm, ⟨49, _⟩ => ⟨S1x128, .f32⟩
  | .hbm, ⟨50, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S16000x25, .f32⟩
  | .local _ .vmem, ⟨6, _⟩ => ⟨S16000x25, .f32⟩
  | .local _ .vmem, ⟨7, _⟩ => ⟨S25x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S16000x128, .bf16⟩
  | .local _ .vmem, ⟨12, _⟩ => ⟨S16000x128, .bf16⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S25x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128_S1x128 : S128.ShapeCasts S1x128
  inb_S16000x25_S16000x25_0_0 : ∀ a, (![0, 0] : Fin 2 → Nat) a + S16000x25.size a ≤ S16000x25.size a
  h_S16000x25 : 0 < S16000x25.numel
  inb_S25x128_S25x128_0_0 : ∀ a, (![0, 0] : Fin 2 → Nat) a + S25x128.size a ≤ S25x128.size a
  h_S25x128 : 0 < S25x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S16000x128_S16000x128_0_0 : ∀ a, (![0, 0] : Fin 2 → Nat) a + S16000x128.size a ≤ S16000x128.size a
  h_S16000x128 : 0 < S16000x128.numel
  packedbf16_S16000x128_S16000x128_0_0 : (Rect.unit (s := S16000x128) ![0, 0] S16000x128.size inb_S16000x128_S16000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  dot_S16000x25_S25x128_S16000x128_1_0_0_1_n_n_wf : DotDims.WF S16000x25 S25x128 S16000x128 [1] [0] [0] [1] [] []
  dot_S16000x128_S128x128_S16000x128_1_0_0_1_n_n_wf : DotDims.WF S16000x128 S128x128 S16000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x25.size a ≤ S1600000x25.size a
  hwx1_0 : ∀ i : grid1.Coords, EltTy.bits .f32 = 32 ∨ (Rect.block (s := S1600000x25) S16000x25.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S25x128.size a ≤ S25x128.size a
  hwx1_1 : ∀ i : grid1.Coords, EltTy.bits .f32 = 32 ∨ (Rect.block (s := S25x128) S25x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16000x128.size a ≤ S1600000x128.size a
  hwx1_5 : ∀ i : grid1.Coords, EltTy.bits .bf16 = 32 ∨ (Rect.block (s := S1600000x128) S16000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S16000x25_S25x128_S16000x128_1_0_0_1_n_n : DotDims S16000x25 S25x128 S16000x128 where
  lhsContracting := [1]
  rhsContracting := [0]
  lhsNonContracting := [0]
  rhsNonContracting := [1]
  lhsBatch := []
  rhsBatch := []
  wf := dot_S16000x25_S25x128_S16000x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S16000x25.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S25x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S16000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S1600000x25 : Shape := ⟨2, ![1600000, 25]⟩
abbrev S1600000 : Shape := ⟨1, ![1600000]⟩
abbrev S128x128 : Shape := ⟨2, ![128, 128]⟩
abbrev S25x128 : Shape := ⟨2, ![25, 128]⟩
abbrev S128 : Shape := ⟨1, ![128]⟩
abbrev S1600000x128 : Shape := ⟨2, ![1600000, 128]⟩
abbrev S1x128 : Shape := ⟨2, ![1, 128]⟩
abbrev S_ : Shape := ⟨0, ![]⟩
abbrev S1600000x1 : Shape := ⟨2, ![1600000, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x25, .f32⟩
  | .hbm, ⟨2, _⟩ => ⟨S1600000, .f32⟩
  | .hbm, ⟨3, _⟩ => ⟨S1600000, .i32⟩
  | .hbm, ⟨4, _⟩ => ⟨S1600000, .i32⟩
  | .hbm, ⟨5, _⟩ => ⟨S128x128, .f32⟩
  | .hbm, ⟨6, _⟩ => ⟨S25x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S50000x128, .f32⟩
  | .hbm, ⟨13, _⟩ => ⟨S1600000x128, .f32⟩
  | .hbm, ⟨14, _⟩ => ⟨S1x128, .f32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S1600000x128, .f32⟩
  | .hbm, ⟨24, _⟩ => ⟨S1600000x128, .f32⟩
  | .hbm, ⟨25, _⟩ => ⟨S1600000x128, .f32⟩
  | .hbm, ⟨26, _⟩ => ⟨S1600000x128, .f32⟩
  | .hbm, ⟨27, _⟩ => ⟨S1x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S_, .f32⟩
  | .hbm, ⟨35, _⟩ => ⟨S1600000, .f32⟩
  | .hbm, ⟨36, _⟩ => ⟨S1600000, .f32⟩
  | .hbm, ⟨37, _⟩ => ⟨S_, .f32⟩
  | .hbm, ⟨38, _⟩ => ⟨S1600000, .f32⟩
  | .hbm, ⟨39, _⟩ => ⟨S1600000, .f32⟩
  | .hbm, ⟨40, _⟩ => ⟨S_, .f32⟩
  | .hbm, ⟨41, _⟩ => ⟨S1600000, .f32⟩
  | .hbm, ⟨42, _⟩ => ⟨S1600000, .i1⟩
  | .hbm, ⟨43, _⟩ => ⟨S1600000, .f32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S50000x128, .f32⟩
  | .hbm, ⟨60, _⟩ => ⟨S1600000x1, .i32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_7 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S1600000x25_S25x128_S1600000x128_1_0_0_1_n_n_wf : DotDims.WF S1600000x25 S25x128 S1600000x128 [1] [0] [0] [1] [] []
  dot_S1600000x128_S128x128_S1600000x128_1_0_0_1_n_n_wf : DotDims.WF S1600000x128 S128x128 S1600000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S1600000x25_S25x128_S1600000x128_1_0_0_1_n_n : DotDims S1600000x25 S25x128 S1600000x128 where
  lhsContracting := [1]
  rhsContracting := [0]
  lhsNonContracting := [0]
  rhsNonContracting := [1]
  lhsBatch := []
  rhsBatch := []
  wf := dot_S1600000x25_S25x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.Stages.lean ====
/-
  The reference's computation cut into the stages the kernel's three pallas_calls and its host operations follow:
  the in2f product X = feat · W_in2f (the generated stage `val_main_v0`), the filter network
  Wf = swish(fij · W_f1 + b_f1) · W_f2 + b_f2 (`val_main_v15`), the edge stage — gather the rows X[src], multiply
  by Wf and by the cosine cutoff of rij, scatter-add to the rows dst — and the last stage swish(agg · W_out + b_out).
  Each stage is stated as one function of whole arrays, and the two matrix stages with a swish are read at an index:
  a sum over the contracted axis plus the bias, times its logistic. The host spells the logistic 1 / (1 + e^(-y))
  with the float word of 1.0, which at the extended reals is the logistic itself.
-/
import proofs.«424306_j9216999817563_3_alg».proof.Proof.Gen.ReferenceIdeal.Read
import Idealize.ShloMosaic.PureOps.Ideal.Laws

noncomputable section

namespace Cert.Stages

open Cert.ReferenceIdeal Cert.ReferenceIdeal.Read Idealize.ShloMosaic Idealize.ShloMosaic.TcCoe

/-- The float word of `1.0` denotes the real 1. -/
theorem one_word : Ideal.ofBits .f32 0x3F800000#32 = 1 := by
  simp [Ideal.ofBits, Ideal.ieee, -EReal.coe_mul]; norm_num

/-- `1 / (1 + e^(-y))` with both ones the word of 1.0 is the logistic of `y`, on every extended real. -/
theorem logistic_spelled (y : Ideal .f32) :
    FloatOps.hostDivf (F := Ideal) (φ := .f32) (FloatOps.ofBits (F := Ideal) .f32 0x3F800000#32)
      (FloatOps.addf (F := Ideal) (φ := .f32) (FloatOps.ofBits (F := Ideal) .f32 0x3F800000#32) (FloatOps.hostUnary (F := Ideal) (φ := .f32) .exp (FloatOps.hostNegf (F := Ideal) (φ := .f32) y)))
    = FloatOps.logistic (F := Ideal) (φ := .f32) y := by
  show FloatOps.hostDivf (F := Ideal) (φ := .f32) (Ideal.ofBits .f32 0x3F800000#32) (FloatOps.addf (F := Ideal) (φ := .f32) (Ideal.ofBits .f32 0x3F800000#32) _) = _
  rw [one_word]; rfl

section Defs

variable {F : FTy → Type} [FloatOps F]

/-- The last stage: project the aggregated messages, add the bias, swish. -/
def outStage (agg : (⟨S50000x128, .f32⟩ : BufTy).Contents (Elt F)) (w : (⟨S128x128, .f32⟩ : BufTy).Contents (Elt F)) (b : (⟨S128, .f32⟩ : BufTy).Contents (Elt F)) : (⟨S50000x128, .f32⟩ : BufTy).Contents (Elt F) :=
  mulf (addf (val_main_v0 (F := F) agg w) (val_main_v43 (F := F) b))
    (Host.divf (val_main_v49 (F := F)) (addf (val_main_v47 (F := F))
      (Host.exp (Host.negf (addf (val_main_v0 (F := F) agg w) (val_main_v43 (F := F) b))))))

/-- The edge stage: gather the source rows, multiply by the filter and the cutoff, scatter-add to the destination
    rows — the reference's own operations, as one function of the two arrays that feed it and the three edge inputs. -/
def edgeStage (x : (⟨S50000x128, .f32⟩ : BufTy).Contents (Elt F)) (wf : (⟨S1600000x128, .f32⟩ : BufTy).Contents (Elt F)) (rij : (⟨S1600000, .f32⟩ : BufTy).Contents (Elt F)) (src dst : (⟨S1600000, .i32⟩ : BufTy).Contents (Elt F)) : (⟨S50000x128, .f32⟩ : BufTy).Contents (Elt F) :=
  Host.scatterAdd scatter_S50000x128_S1600000x1_S1600000x128_1_0_0_1 (val_main_v38 (F := F)) (val_main_v39 (F := F) dst)
    (mulf (mulf (Host.gather gather_S50000x128_S1600000x1_S1600000x128_1_0_n_n_0_1_1128 x (val_main_v32 (F := F) src)) wf) (val_main_v36 (F := F) rij))

set_option maxRecDepth 8192 in
/-- The reference's result through the stages. -/
theorem result_eq_stages (x0 : (⟨S50000x128, .f32⟩ : BufTy).Contents (Elt F)) (x1 : (⟨S1600000x25, .f32⟩ : BufTy).Contents (Elt F)) (x2 : (⟨S1600000, .f32⟩ : BufTy).Contents (Elt F)) (x3 x4 : (⟨S1600000, .i32⟩ : BufTy).Contents (Elt F)) (x5 : (⟨S128x128, .f32⟩ : BufTy).Contents (Elt F)) (x6 : (⟨S25x128, .f32⟩ : BufTy).Contents (Elt F)) (x7 : (⟨S128, .f32⟩ : BufTy).Contents (Elt F)) (x8 : (⟨S128x128, .f32⟩ : BufTy).Contents (Elt F)) (x9 : (⟨S128, .f32⟩ : BufTy).Contents (Elt F)) (x10 : (⟨S128x128, .f32⟩ : BufTy).Contents (Elt F)) (x11 : (⟨S128, .f32⟩ : BufTy).Contents (Elt F)) :
    val_main_v51 (F := F) x0 x1 x2 x3 x4 x5 x6 x7 x8 x9 x10 x11
      = outStage (edgeStage (val_main_v0 (F := F) x0 x5) (val_main_v15 (F := F) x1 x6 x7 x8 x9) x2 x3 x4) x10 x11 := by
  unfold val_main_v51 val_main_v50 val_main_v48 val_main_v46 val_main_v45 val_main_v44 val_main_v41 val_main_v40 val_main_v37
    val_main_v34 val_main_v33 outStage edgeStage
  rfl

end Defs

/-- The last stage at an index: y · logistic y with y the row of `agg` against the column of `w`, plus the bias of
    that column. -/
theorem outStage_apply (agg : (⟨S50000x128, .f32⟩ : BufTy).Contents (Elt Ideal)) (w : (⟨S128x128, .f32⟩ : BufTy).Contents (Elt Ideal)) (b : (⟨S128, .f32⟩ : BufTy).Contents (Elt Ideal)) (i : S50000x128.Idx) :
    outStage (F := Ideal) agg w b i
      = FloatOps.mulf (F := Ideal) (φ := .f32)
          (FloatOps.addf (F := Ideal) (φ := .f32) (∑ k : Fin 128, agg (lidx_main_v0 i k) * w (ridx_main_v0 i k)) (b (idx_main_v42 (idx_main_v43 i))))
          (FloatOps.logistic (F := Ideal) (φ := .f32) (FloatOps.addf (F := Ideal) (φ := .f32) (∑ k : Fin 128, agg (lidx_main_v0 i k) * w (ridx_main_v0 i k)) (b (idx_main_v42 (idx_main_v43 i))))) := by
  show FloatOps.mulf (F := Ideal) (φ := .f32) (FloatOps.addf (F := Ideal) (φ := .f32) (val_main_v0 (F := Ideal) agg w i) (val_main_v43 (F := Ideal) b i))
      (FloatOps.hostDivf (F := Ideal) (φ := .f32) (val_main_v49 (F := Ideal) i) (FloatOps.addf (F := Ideal) (φ := .f32) (val_main_v47 (F := Ideal) i)
        (FloatOps.hostUnary (F := Ideal) (φ := .f32) .exp (FloatOps.hostNegf (F := Ideal) (φ := .f32) (FloatOps.addf (F := Ideal) (φ := .f32) (val_main_v0 (F := Ideal) agg w i) (val_main_v43 (F := Ideal) b i)))))) = _
  rw [val_main_v0_apply, val_main_v43_apply, val_main_v42_apply, val_main_v49_apply, val_main_cst_8_apply,
    val_main_v47_apply, val_main_cst_7_apply, logistic_spelled]

end Cert.Stages

end
-- ==== Proof.InProj.lean ====
/-
  The first pallas_call: rows of the node features times the in2f weights, ten blocks of 5000 rows each.
  At the extended reals a block's product is, entry by entry, the sum over the contracted axis of the products
  of the block's row and the weights' column (the narrowing of the operands to bf16 is the identity there, and
  the accumulator is the zero splat). Row r of the block at grid point t is row 5000·t + r of the array, the
  weights' block is the whole matrix, and the ten output blocks tile the result: so the result array after the
  region is, at every index, the same sum the reference's `dot_general` is — one function of the two arrays.
-/
import proofs.«424306_j9216999817563_3_alg».proof.Proof.Gen.KernelIdeal.Frame
import proofs.«424306_j9216999817563_3_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.InProj

open Cert.KernelIdeal Cert.KernelIdeal.Gen Idealize.ShloMosaic Idealize.ShloMosaic.TcCoe Idealize.SL.Sem
open Idealize.ShloMosaic.Pipeline (Dat Cfg Window)

/-! ## The block product at an index -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (row of `j`, `k`) of a block of rows. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Entry (`k`, column of `j`) of the weights. -/
abbrev colAt (j : S5000x128.Idx) (k : Fin 128) : S128x128.Idx := fun a => match a with
  | ⟨0, _⟩ => ⟨k.val, k.isLt⟩
  | ⟨1, _⟩ => ⟨(j 1).val, (j 1).isLt⟩

/-- The body's stored value at an entry: the sum over the 128 contracted positions. -/
theorem blockProduct_apply (x0 : Vec Ideal S5000x128 .f32) (x1 : Vec Ideal S128x128 .f32) (j : S5000x128.Idx) :
    k0_pay1 (F := Ideal) x0 x1 j = ∑ k : Fin 128, x0 (rowAt j k) * x1 (colAt j k) := by
  unfold k0_pay1
  show FloatOps.matmul (F := Ideal) dot_S5000x128_S128x128_S5000x128_1_0_0_1_n_n none (truncf (F := Ideal) .bf16 x0 bitsLt_bf16_f32) (truncf (F := Ideal) .bf16 x1 bitsLt_bf16_f32) (constant (F := Ideal) S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt j k := funext fun a => Fin.ext (by
    match a with
    | ⟨0, _⟩ => exact lhs_row _ _
    | ⟨1, _⟩ => exact (lhs_contr _ _).trans hk)
  have er : dot_S5000x128_S128x128_S5000x128_1_0_0_1_n_n.rhsIdx j ((ValueIdx.contrEquiv1 dot_S5000x128_S128x128_S5000x128_1_0_0_1_n_n 128 rfl rfl).symm k) = colAt j k := funext fun a => Fin.ext (by
    match a with
    | ⟨0, _⟩ => exact (rhs_contr _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the features' and the result's blocks are block row `t`, the weights'
    block is the whole matrix. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed_eq (c : Dev nD) (t : Fin cfg0.N) :
    (dat0 V c).flushed 2 t = ((cfg0.win 2).blk t).view.read (Elt Ideal)
      (Cert.ReferenceIdeal.Read.val_main_v0 (F := Ideal) (V c main_arg0) (V c main_arg5)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  funext j
  show k0_pay1 (F := Ideal) (iblk0 V c 0 t) (iblk0 V c 1 t) j
    = Cert.ReferenceIdeal.Read.val_main_v0 (F := Ideal) (V c main_arg0) (V c main_arg5) (((cfg0.win 2).blk t).view.emb j)
  refine (blockProduct_apply (iblk0 V c 0 t) (iblk0 V c 1 t) j).trans ?_
  refine Eq.trans ?_ (Cert.ReferenceIdeal.Read.val_main_v0_apply (V c main_arg0) (V c main_arg5) (((cfg0.win 2).blk t).view.emb j)).symm
  refine Finset.sum_congr rfl fun k _ => ?_
  obtain ⟨e0, e1, e2, e3, e4, e5⟩ := blockIndices t
  have h0 : iblk0 V c 0 t (rowAt j k)
      = V c main_arg0 (Cert.ReferenceIdeal.Read.lidx_main_v0 (((cfg0.win 2).blk t).view.emb j) k) := by
    show V c main_arg0 (((cfg0.win 0).blk t).view.emb (rowAt j k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : iblk0 V c 1 t (colAt j k)
      = V c main_arg5 (Cert.ReferenceIdeal.Read.ridx_main_v0 (((cfg0.win 2).blk t).view.emb j) k) := by
    show V c main_arg5 (((cfg0.win 1).blk t).view.emb (colAt j k)) = _
    refine congrArg (V c main_arg5) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega
  rw [h0, h1]

/-- An index of the result array lies in point `t`'s block iff each coordinate lies in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the result lies in the block of point `r / 5000`: the ten blocks tile the array. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < cfg0.N := by rw [show cfg0.N = 10 from N_0]; omega
  refine ⟨⟨(i 0).val / 5000, hN⟩, flush0_2 _, ?_⟩
  rw [mem_blk]
  obtain ⟨e0, e1, e2, e3, e4, e5⟩ := blockIndices ⟨(i 0).val / 5000, hN⟩
  have e4' : win0_2.index ⟨(i 0).val / 5000, hN⟩ (0 : Fin 2) = (i 0).val / 5000 := e4
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    omega

/-- The result array after the region: the whole product of the two arrays as the region finds them. -/
theorem final (c : Dev nD) :
    (dat0 V c).arrAt 2 cfg0.N = Cert.ReferenceIdeal.Read.val_main_v0 (F := Ideal) (V c main_arg0) (V c main_arg5) :=
  (dat0 V c).arrAt_eq_of_cover 2 _ (fun t _ => flushed_eq V c t) cover

end Cert.KernelIdeal.InProj

end
-- ==== Proof.FilterStage.lean ====
/-
  The filter network read at an index. For an edge e and a hidden unit u the hidden activation is z · logistic z with
  z the row e of the radial basis features against column u of the first weights, plus the first bias at u; the
  filter at (e, q) is the sum over the 128 hidden units of the activation against column q of the second weights,
  plus the second bias at q. The reference spells the logistic 1 / (1 + e^(-z)) with the word of 1.0.
-/
import proofs.«424306_j9216999817563_3_alg».proof.Proof.Stages

noncomputable section

namespace Cert.Stages

open Cert.ReferenceIdeal Cert.ReferenceIdeal.Read Idealize.ShloMosaic Idealize.ShloMosaic.TcCoe

/-- The hidden activation at an edge and a hidden unit. -/
def hiddenAt (x1 : (⟨S1600000x25, .f32⟩ : BufTy).Contents (Elt Ideal)) (x6 : (⟨S25x128, .f32⟩ : BufTy).Contents (Elt Ideal)) (x7 : (⟨S128, .f32⟩ : BufTy).Contents (Elt Ideal)) (i : S1600000x128.Idx) : Ideal .f32 :=
  FloatOps.mulf (F := Ideal) (φ := .f32)
    (FloatOps.addf (F := Ideal) (φ := .f32) (∑ k : Fin 25, x1 (lidx_main_v1 i k) * x6 (ridx_main_v1 i k)) (x7 (idx_main_v2 (idx_main_v3 i))))
    (FloatOps.logistic (F := Ideal) (φ := .f32) (FloatOps.addf (F := Ideal) (φ := .f32) (∑ k : Fin 25, x1 (lidx_main_v1 i k) * x6 (ridx_main_v1 i k)) (x7 (idx_main_v2 (idx_main_v3 i)))))

theorem hidden_apply (x1 : (⟨S1600000x25, .f32⟩ : BufTy).Contents (Elt Ideal)) (x6 : (⟨S25x128, .f32⟩ : BufTy).Contents (Elt Ideal)) (x7 : (⟨S128, .f32⟩ : BufTy).Contents (Elt Ideal)) (i : S1600000x128.Idx) :
    val_main_v11 (F := Ideal) x1 x6 x7 i = hiddenAt x1 x6 x7 i := by
  show FloatOps.mulf (F := Ideal) (φ := .f32) (FloatOps.addf (F := Ideal) (φ := .f32) (val_main_v1 (F := Ideal) x1 x6 i) (val_main_v3 (F := Ideal) x7 i))
      (FloatOps.hostDivf (F := Ideal) (φ := .f32) (val_main_v9 (F := Ideal) i) (FloatOps.addf (F := Ideal) (φ := .f32) (val_main_v7 (F := Ideal) i)
        (FloatOps.hostUnary (F := Ideal) (φ := .f32) .exp (FloatOps.hostNegf (F := Ideal) (φ := .f32) (FloatOps.addf (F := Ideal) (φ := .f32) (val_main_v1 (F := Ideal) x1 x6 i) (val_main_v3 (F := Ideal) x7 i)))))) = _
  rw [val_main_v1_apply, val_main_v3_apply, val_main_v2_apply, val_main_v9_apply, val_main_cst_0_apply,
    val_main_v7_apply, val_main_cst_apply, logistic_spelled]
  rfl

/-- The filter at an edge and a filter unit. -/
theorem filter_apply (x1 : (⟨S1600000x25, .f32⟩ : BufTy).Contents (Elt Ideal)) (x6 : (⟨S25x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (i : S1600000x128.Idx) :
    val_main_v15 (F := Ideal) x1 x6 x7 x8 x9 i
      = FloatOps.addf (F := Ideal) (φ := .f32) (∑ k : Fin 128, hiddenAt x1 x6 x7 (lidx_main_v12 i k) * x8 (ridx_main_v12 i k)) (x9 (idx_main_v13 (idx_main_v14 i))) := by
  show FloatOps.addf (F := Ideal) (φ := .f32) (val_main_v12 (F := Ideal) x1 x6 x7 x8 i) (val_main_v14 (F := Ideal) x9 i) = _
  rw [val_main_v12_apply, val_main_v14_apply, val_main_v13_apply]
  have hs : (∑ k : Fin 128, (val_main_v11 (F := Ideal) x1 x6 x7) (lidx_main_v12 i k) * x8 (ridx_main_v12 i k))
      = ∑ k : Fin 128, hiddenAt x1 x6 x7 (lidx_main_v12 i k) * x8 (ridx_main_v12 i k) :=
    Finset.sum_congr rfl fun k _ => by rw [hidden_apply]
  rw [hs]

end Cert.Stages

end
-- ==== Proof.Rows.lean ====
/-
  A bias vector of 128 entries reaches a kernel as a [1, 128] array (the host reshapes it). Reading that array's one
  row gives the vector back: the reshape keeps the row-major position, and position (0, q) of [1, 128] is position q.
-/
import Idealize.ShloMosaic.Lib.Pipeline.Value

noncomputable section

namespace Cert.Rows

open Idealize.ShloMosaic

abbrev Vec128 : Shape := ⟨1, ![128]⟩
abbrev Row128 : Shape := ⟨2, ![1, 128]⟩

/-- Entry (0, q) of a [1, 128] array, for `q` the coordinate of a 128-vector index. -/
abbrev inRow (a : Vec128.Idx) : Row128.Idx := fun d => match d with
  | ⟨0, _⟩ => ⟨0, Nat.one_pos⟩
  | ⟨1, _⟩ => ⟨(a 0).val, (a 0).isLt⟩

/-- A [1, 128] array read as its one row. -/
def rowOf {α : Type} (r : Row128.Idx → α) : Vec128.Idx → α := fun a => r (inRow a)

/-- The row of the reshaped vector is the vector. -/
theorem rowOf_shapeCast {α : Type} (b : Vec128.Idx → α) (h : Vec128.ShapeCasts Row128) :
    rowOf (shapeCast Row128 b h) = b := by
  funext a
  show shapeCast Row128 b h (inRow a) = b a
  refine shapeCast_apply b h (inRow a) a ?_
  rw [Shape.rowMajor_val_one, Shape.rowMajor_val_two]
  show (a 0).val = 0 * 128 + (a 0).val
  omega

end Cert.Rows

end
-- ==== Proof.Filter.lean ====
/-
  The second pallas_call: the filter network on blocks of 16000 edges, a hundred blocks. At the extended reals the
  block's entry (e, q) is the sum over the 128 hidden units u of h(e, u) against the second weights' (u, q), plus the
  second bias at q, where h(e, u) = z · logistic z and z is the block's row e of the radial basis features against the
  first weights' column u plus the first bias at u (narrowing to bf16 is the identity there; each accumulator is the
  zero splat; the biases are [1, 128] arrays whose one row is broadcast down the block). Edge e of the block at grid
  point t is edge 16000·t + e of the array, the other four blocks are the whole arrays, and the hundred output blocks
  tile the result: so the result array is, index by index, the reference's filter stage of the five arrays the
  region finds, the two [1, 128] biases read as their rows.
-/
import proofs.«424306_j9216999817563_3_alg».proof.Proof.Gen.KernelIdeal.Frame
import proofs.«424306_j9216999817563_3_alg».proof.Proof.FilterStage
import proofs.«424306_j9216999817563_3_alg».proof.Proof.Rows
import Idealize.ShloMosaic.Lib.Pipeline.Value
import Idealize.ShloMosaic.Lib.ValueIdx
import Idealize.ShloMosaic.PureOps.Ideal.Laws

set_option maxRecDepth 16384

noncomputable section

namespace Cert.KernelIdeal.Filter

open Cert.KernelIdeal Cert.KernelIdeal.Gen Idealize.ShloMosaic Idealize.ShloMosaic.TcCoe Idealize.SL.Sem
open Idealize.ShloMosaic.Pipeline (Dat Cfg Window)
open Cert.Rows (rowOf)

/-! ## The two block products at an index -/

theorem first_lhs_row (i : S16000x128.Idx) (q : dot_S16000x25_S25x128_S16000x128_1_0_0_1_n_n.contr.Idx) :
    (dot_S16000x25_S25x128_S16000x128_1_0_0_1_n_n.lhsIdx i q 0).val = (i 0).val := by
  unfold DotDims.lhsIdx
  rw [dif_neg (show ¬(0 : Fin S16000x25.rank) ∈ dot_S16000x25_S25x128_S16000x128_1_0_0_1_n_n.lhsBatch by decide), dif_pos (show (0 : Fin S16000x25.rank) ∈ dot_S16000x25_S25x128_S16000x128_1_0_0_1_n_n.lhsNonContracting by decide)]
  rfl
theorem first_lhs_contr (i : S16000x128.Idx) (q : dot_S16000x25_S25x128_S16000x128_1_0_0_1_n_n.contr.Idx) :
    (dot_S16000x25_S25x128_S16000x128_1_0_0_1_n_n.lhsIdx i q 1).val = (q ⟨0, by decide⟩).val :=
  dot_S16000x25_S25x128_S16000x128_1_0_0_1_n_n.lhsIdx_val_of_single rfl i q
theorem first_rhs_contr (i : S16000x128.Idx) (q : dot_S16000x25_S25x128_S16000x128_1_0_0_1_n_n.contr.Idx) :
    (dot_S16000x25_S25x128_S16000x128_1_0_0_1_n_n.rhsIdx i q 0).val = (q ⟨0, by decide⟩).val :=
  dot_S16000x25_S25x128_S16000x128_1_0_0_1_n_n.rhsIdx_val_of_single rfl i q
theorem first_rhs_col (i : S16000x128.Idx) (q : dot_S16000x25_S25x128_S16000x128_1_0_0_1_n_n.contr.Idx) :
    (dot_S16000x25_S25x128_S16000x128_1_0_0_1_n_n.rhsIdx i q 1).val = (i 1).val := by
  unfold DotDims.rhsIdx
  rw [dif_neg (show ¬(1 : Fin S25x128.rank) ∈ dot_S16000x25_S25x128_S16000x128_1_0_0_1_n_n.rhsBatch by decide), dif_pos (show (1 : Fin S25x128.rank) ∈ dot_S16000x25_S25x128_S16000x128_1_0_0_1_n_n.rhsNonContracting by decide)]
  rfl

theorem second_lhs_row (i : S16000x128.Idx) (q : dot_S16000x128_S128x128_S16000x128_1_0_0_1_n_n.contr.Idx) :
    (dot_S16000x128_S128x128_S16000x128_1_0_0_1_n_n.lhsIdx i q 0).val = (i 0).val := by
  unfold DotDims.lhsIdx
  rw [dif_neg (show ¬(0 : Fin S16000x128.rank) ∈ dot_S16000x128_S128x128_S16000x128_1_0_0_1_n_n.lhsBatch by decide), dif_pos (show (0 : Fin S16000x128.rank) ∈ dot_S16000x128_S128x128_S16000x128_1_0_0_1_n_n.lhsNonContracting by decide)]
  rfl
theorem second_lhs_contr (i : S16000x128.Idx) (q : dot_S16000x128_S128x128_S16000x128_1_0_0_1_n_n.contr.Idx) :
    (dot_S16000x128_S128x128_S16000x128_1_0_0_1_n_n.lhsIdx i q 1).val = (q ⟨0, by decide⟩).val :=
  dot_S16000x128_S128x128_S16000x128_1_0_0_1_n_n.lhsIdx_val_of_single rfl i q
theorem second_rhs_contr (i : S16000x128.Idx) (q : dot_S16000x128_S128x128_S16000x128_1_0_0_1_n_n.contr.Idx) :
    (dot_S16000x128_S128x128_S16000x128_1_0_0_1_n_n.rhsIdx i q 0).val = (q ⟨0, by decide⟩).val :=
  dot_S16000x128_S128x128_S16000x128_1_0_0_1_n_n.rhsIdx_val_of_single rfl i q
theorem second_rhs_col (i : S16000x128.Idx) (q : dot_S16000x128_S128x128_S16000x128_1_0_0_1_n_n.contr.Idx) :
    (dot_S16000x128_S128x128_S16000x128_1_0_0_1_n_n.rhsIdx i q 1).val = (i 1).val := by
  unfold DotDims.rhsIdx
  rw [dif_neg (show ¬(1 : Fin S128x128.rank) ∈ dot_S16000x128_S128x128_S16000x128_1_0_0_1_n_n.rhsBatch by decide), dif_pos (show (1 : Fin S128x128.rank) ∈ dot_S16000x128_S128x128_S16000x128_1_0_0_1_n_n.rhsNonContracting by decide)]
  rfl

/-- Entry (edge of `j`, `k`) of a block of radial basis features. -/
abbrev featAt (j : S16000x128.Idx) (k : Fin 25) : S16000x25.Idx := fun a => match a with
  | ⟨0, _⟩ => ⟨(j 0).val, (j 0).isLt⟩
  | ⟨1, _⟩ => ⟨k.val, k.isLt⟩
/-- Entry (`k`, column of `j`) of the first weights. -/
abbrev firstAt (j : S16000x128.Idx) (k : Fin 25) : S25x128.Idx := fun a => match a with
  | ⟨0, _⟩ => ⟨k.val, k.isLt⟩
  | ⟨1, _⟩ => ⟨(j 1).val, (j 1).isLt⟩
/-- Entry (edge of `j`, hidden unit `k`) of a block of hidden activations. -/
abbrev unitAt (j : S16000x128.Idx) (k : Fin 128) : S16000x128.Idx := fun a => match a with
  | ⟨0, _⟩ => ⟨(j 0).val, (j 0).isLt⟩
  | ⟨1, _⟩ => ⟨k.val, k.isLt⟩
/-- Entry (`k`, column of `j`) of the second weights. -/
abbrev secondAt (j : S16000x128.Idx) (k : Fin 128) : S128x128.Idx := fun a => match a with
  | ⟨0, _⟩ => ⟨k.val, k.isLt⟩
  | ⟨1, _⟩ => ⟨(j 1).val, (j 1).isLt⟩
/-- A bias' entry for the column of `j`. -/
abbrev biasAt (j : S16000x128.Idx) : S1x128.Idx := fun a => match a with
  | ⟨0, _⟩ => ⟨0, Nat.one_pos⟩
  | ⟨1, _⟩ => ⟨(j 1).val, (j 1).isLt⟩

/-- The first product into the zero splat, at an entry: the sum over the 25 basis functions. -/
theorem firstProduct_apply (l : FVec Ideal S16000x25 .bf16) (r : FVec Ideal S25x128 .bf16) (j : S16000x128.Idx) :
    FloatOps.matmul (F := Ideal) dot_S16000x25_S25x128_S16000x128_1_0_0_1_n_n none l r (constant (F := Ideal) S16000x128 .f32 0x00000000#32) j
      = ∑ k : Fin 25, l (featAt j k) * r (firstAt j k) := by
  rw [Ideal.matmul_constant_zero_apply, ← Equiv.sum_comp (ValueIdx.contrEquiv1 dot_S16000x25_S25x128_S16000x128_1_0_0_1_n_n 25 rfl rfl).symm]
  refine Finset.sum_congr rfl fun k _ => ?_
  have hk := ValueIdx.contrEquiv1_symm_val dot_S16000x25_S25x128_S16000x128_1_0_0_1_n_n 25 rfl rfl k
  have el : dot_S16000x25_S25x128_S16000x128_1_0_0_1_n_n.lhsIdx j ((ValueIdx.contrEquiv1 dot_S16000x25_S25x128_S16000x128_1_0_0_1_n_n 25 rfl rfl).symm k) = featAt j k := funext fun a => Fin.ext (by
    match a with
    | ⟨0, _⟩ => exact first_lhs_row _ _
    | ⟨1, _⟩ => exact (first_lhs_contr _ _).trans hk)
  have er : dot_S16000x25_S25x128_S16000x128_1_0_0_1_n_n.rhsIdx j ((ValueIdx.contrEquiv1 dot_S16000x25_S25x128_S16000x128_1_0_0_1_n_n 25 rfl rfl).symm k) = firstAt j k := funext fun a => Fin.ext (by
    match a with
    | ⟨0, _⟩ => exact (first_rhs_contr _ _).trans hk
    | ⟨1, _⟩ => exact first_rhs_col _ _)
  rw [el, er]

/-- The second product into the zero splat, at an entry: the sum over the 128 hidden units. -/
theorem secondProduct_apply (l : FVec Ideal S16000x128 .bf16) (r : FVec Ideal S128x128 .bf16) (j : S16000x128.Idx) :
    FloatOps.matmul (F := Ideal) dot_S16000x128_S128x128_S16000x128_1_0_0_1_n_n none l r (constant (F := Ideal) S16000x128 .f32 0x00000000#32) j
      = ∑ k : Fin 128, l (unitAt j k) * r (secondAt j k) := by
  rw [Ideal.matmul_constant_zero_apply, ← Equiv.sum_comp (ValueIdx.contrEquiv1 dot_S16000x128_S128x128_S16000x128_1_0_0_1_n_n 128 rfl rfl).symm]
  refine Finset.sum_congr rfl fun k _ => ?_
  have hk := ValueIdx.contrEquiv1_symm_val dot_S16000x128_S128x128_S16000x128_1_0_0_1_n_n 128 rfl rfl k
  have el : dot_S16000x128_S128x128_S16000x128_1_0_0_1_n_n.lhsIdx j ((ValueIdx.contrEquiv1 dot_S16000x128_S128x128_S16000x128_1_0_0_1_n_n 128 rfl rfl).symm k) = unitAt j k := funext fun a => Fin.ext (by
    match a with
    | ⟨0, _⟩ => exact second_lhs_row _ _
    | ⟨1, _⟩ => exact (second_lhs_contr _ _).trans hk)
  have er : dot_S16000x128_S128x128_S16000x128_1_0_0_1_n_n.rhsIdx j ((ValueIdx.contrEquiv1 dot_S16000x128_S128x128_S16000x128_1_0_0_1_n_n 128 rfl rfl).symm k) = secondAt j k := funext fun a => Fin.ext (by
    match a with
    | ⟨0, _⟩ => exact (second_rhs_contr _ _).trans hk
    | ⟨1, _⟩ => exact second_rhs_col _ _)
  rw [el, er]

/-- A [1, 128] bias broadcast down a block, at an entry. -/
theorem biasRow_apply (x : Vec Ideal S1x128 .f32) (j : S16000x128.Idx) :
    broadcastTo S16000x128 (shapeCast S1x128 x shapeCasts_S1x128_S1x128) broadcasts_S1x128_S16000x128 j = x (biasAt j) := by
  rw [shapeCast_self]
  exact broadcastTo_apply x broadcasts_S1x128_S16000x128 j (biasAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-! ## The body's stored value at an entry -/

/-- The hidden block before its narrowing, as the body computes it. -/
def hiddenBlock (x0 : Vec Ideal S16000x25 .f32) (x2 : Vec Ideal S25x128 .f32) (x5 : Vec Ideal S1x128 .f32) : FVec Ideal S16000x128 .f32 :=
  mulf (F := Ideal)
    (addf (F := Ideal) (matmul (F := Ideal) dot_S16000x25_S25x128_S16000x128_1_0_0_1_n_n none (truncf (F := Ideal) .bf16 x0 bitsLt_bf16_f32) (truncf (F := Ideal) .bf16 x2 bitsLt_bf16_f32) (constant (F := Ideal) S16000x128 .f32 0x00000000#32))
      (broadcastTo S16000x128 (shapeCast S1x128 x5 shapeCasts_S1x128_S1x128) broadcasts_S1x128_S16000x128))
    (logistic (F := Ideal) (addf (F := Ideal) (matmul (F := Ideal) dot_S16000x25_S25x128_S16000x128_1_0_0_1_n_n none (truncf (F := Ideal) .bf16 x0 bitsLt_bf16_f32) (truncf (F := Ideal) .bf16 x2 bitsLt_bf16_f32) (constant (F := Ideal) S16000x128 .f32 0x00000000#32))
      (broadcastTo S16000x128 (shapeCast S1x128 x5 shapeCasts_S1x128_S1x128) broadcasts_S1x128_S16000x128)))

/-- The hidden activation at (e, u) of a block: z · logistic z. -/
def blockHiddenAt (x0 : Vec Ideal S16000x25 .f32) (x2 : Vec Ideal S25x128 .f32) (x5 : Vec Ideal S1x128 .f32) (i : S16000x128.Idx) : Ideal .f32 :=
  FloatOps.mulf (F := Ideal) (φ := .f32)
    (FloatOps.addf (F := Ideal) (φ := .f32) (∑ k : Fin 25, x0 (featAt i k) * x2 (firstAt i k)) (x5 (biasAt i)))
    (FloatOps.logistic (F := Ideal) (φ := .f32) (FloatOps.addf (F := Ideal) (φ := .f32) (∑ k : Fin 25, x0 (featAt i k) * x2 (firstAt i k)) (x5 (biasAt i))))

theorem hiddenBlock_apply (x0 : Vec Ideal S16000x25 .f32) (x2 : Vec Ideal S25x128 .f32) (x5 : Vec Ideal S1x128 .f32) (i : S16000x128.Idx) :
    hiddenBlock x0 x2 x5 i = blockHiddenAt x0 x2 x5 i := by
  have hm := firstProduct_apply (truncf (F := Ideal) .bf16 x0 bitsLt_bf16_f32) (truncf (F := Ideal) .bf16 x2 bitsLt_bf16_f32) i
  have hb := biasRow_apply x5 i
  show FloatOps.mulf (F := Ideal) (φ := .f32)
      (FloatOps.addf (F := Ideal) (φ := .f32) (FloatOps.matmul (F := Ideal) dot_S16000x25_S25x128_S16000x128_1_0_0_1_n_n none (truncf (F := Ideal) .bf16 x0 bitsLt_bf16_f32) (truncf (F := Ideal) .bf16 x2 bitsLt_bf16_f32) (constant (F := Ideal) S16000x128 .f32 0x00000000#32) i)
        (broadcastTo S16000x128 (shapeCast S1x128 x5 shapeCasts_S1x128_S1x128) broadcasts_S1x128_S16000x128 i))
      (FloatOps.logistic (F := Ideal) (φ := .f32) (FloatOps.addf (F := Ideal) (φ := .f32) (FloatOps.matmul (F := Ideal) dot_S16000x25_S25x128_S16000x128_1_0_0_1_n_n none (truncf (F := Ideal) .bf16 x0 bitsLt_bf16_f32) (truncf (F := Ideal) .bf16 x2 bitsLt_bf16_f32) (constant (F := Ideal) S16000x128 .f32 0x00000000#32) i)
        (broadcastTo S16000x128 (shapeCast S1x128 x5 shapeCasts_S1x128_S1x128) broadcasts_S1x128_S16000x128 i))) = _
  rw [hm, hb]
  rfl

/-- The body's stored value at an entry: the narrowing of the sum over the hidden units plus the second bias. -/
theorem filterBlock_apply (x0 : Vec Ideal S16000x25 .f32) (x2 : Vec Ideal S25x128 .f32) (x5 : Vec Ideal S1x128 .f32)
    (x12 : Vec Ideal S128x128 .f32) (x15 : Vec Ideal S1x128 .f32) (j : S16000x128.Idx) :
    k1_pay1 (F := Ideal) x0 x2 x5 x12 x15 j
      = FloatOps.truncf (F := Ideal) .bf16 bitsLt_bf16_f32
          (FloatOps.addf (F := Ideal) (φ := .f32) (∑ k : Fin 128, blockHiddenAt x0 x2 x5 (unitAt j k) * x12 (secondAt j k)) (x15 (biasAt j))) := by
  have hm := secondProduct_apply (truncf (F := Ideal) .bf16 (hiddenBlock x0 x2 x5) bitsLt_bf16_f32) (truncf (F := Ideal) .bf16 x12 bitsLt_bf16_f32) j
  have hb := biasRow_apply x15 j
  have hs : (∑ k : Fin 128, (truncf (F := Ideal) .bf16 (hiddenBlock x0 x2 x5) bitsLt_bf16_f32) (unitAt j k) * (truncf (F := Ideal) .bf16 x12 bitsLt_bf16_f32) (secondAt j k))
      = ∑ k : Fin 128, blockHiddenAt x0 x2 x5 (unitAt j k) * x12 (secondAt j k) :=
    Finset.sum_congr rfl fun k _ => by
      show hiddenBlock x0 x2 x5 (unitAt j k) * x12 (secondAt j k) = _
      rw [hiddenBlock_apply]
  unfold k1_pay1
  show FloatOps.truncf (F := Ideal) .bf16 bitsLt_bf16_f32
      (FloatOps.addf (F := Ideal) (φ := .f32) (FloatOps.matmul (F := Ideal) dot_S16000x128_S128x128_S16000x128_1_0_0_1_n_n none (truncf (F := Ideal) .bf16 (hiddenBlock x0 x2 x5) bitsLt_bf16_f32) (truncf (F := Ideal) .bf16 x12 bitsLt_bf16_f32) (constant (F := Ideal) S16000x128 .f32 0x00000000#32) j)
        (broadcastTo S16000x128 (shapeCast S1x128 x15 shapeCasts_S1x128_S1x128) broadcasts_S1x128_S16000x128 j)) = _
  rw [hm, hb, hs]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the features' and the result's blocks are block row `t`, the other four
    blocks are the whole arrays. -/
theorem blockIndices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The filter stage of the arrays the region finds, narrowed to the result's format (the identity at the extended
    reals). -/
def filterOf (c : Dev nD) : FVec Ideal S1600000x128 .bf16 :=
  truncf (F := Ideal) .bf16 (Cert.ReferenceIdeal.Read.val_main_v15 (F := Ideal) (V c main_arg1) (V c main_arg6) (rowOf (V c main_v1)) (V c main_arg8) (rowOf (V c main_v2))) bitsLt_bf16_f32

/-- What point `t` writes back is block `t` of the filter stage. -/
theorem flushed_eq (c : Dev nD) (t : Fin cfg1.N) :
    (dat1 V c).flushed 5 t = ((cfg1.win 5).blk t).view.read (Elt Ideal) (filterOf V c) := by
  show (cfg1.win 5).cut (grid1.coords t) ((dat1 V c).after 5 t) = _
  rw [after1_5]
  unfold out1_5
  rw [View.canon_unit_zero zeroOffsets]
  simp only [View.ld_unit_zero (S := S16000x25) zeroOffsets, View.ld_unit_zero (S := S25x128) zeroOffsets,
    View.ld_unit_zero (S := S1x128) zeroOffsets, View.ld_unit_zero (S := S128x128) zeroOffsets]
  funext j
  show k1_pay1 (F := Ideal) (iblk1 V c 0 t) (iblk1 V c 1 t) (iblk1 V c 2 t) (iblk1 V c 3 t) (iblk1 V c 4 t) j
    = FloatOps.truncf (F := Ideal) .bf16 bitsLt_bf16_f32
        (Cert.ReferenceIdeal.Read.val_main_v15 (F := Ideal) (V c main_arg1) (V c main_arg6) (rowOf (V c main_v1)) (V c main_arg8) (rowOf (V c main_v2)) (((cfg1.win 5).blk t).view.emb j))
  refine (filterBlock_apply (iblk1 V c 0 t) (iblk1 V c 1 t) (iblk1 V c 2 t) (iblk1 V c 3 t) (iblk1 V c 4 t) j).trans ?_
  refine congrArg (FloatOps.truncf (F := Ideal) .bf16 bitsLt_bf16_f32) ?_
  refine Eq.trans ?_ (Cert.Stages.filter_apply (V c main_arg1) (V c main_arg6) (rowOf (V c main_v1)) (V c main_arg8) (rowOf (V c main_v2)) (((cfg1.win 5).blk t).view.emb j)).symm
  obtain ⟨e0, e1, e2, e3, e4, e5, e6, e7, e8, e9, e10, e11⟩ := blockIndices t
  have hfeat : ∀ (k : Fin 128) (k1 : Fin 25), iblk1 V c 0 t (featAt (unitAt j k) k1)
      = V c main_arg1 (Cert.ReferenceIdeal.Read.lidx_main_v1 (Cert.ReferenceIdeal.Read.lidx_main_v12 (((cfg1.win 5).blk t).view.emb j) k) k1) := fun k k1 => by
    show V c main_arg1 (((cfg1.win 0).blk t).view.emb (featAt (unitAt j k) k1)) = _
    refine congrArg (V c main_arg1) (funext fun a => Fin.ext ?_)
    match a with
    | ⟨0, _⟩ =>
      show win1_0.index t (0 : Fin 2) * 16000 + 1 * (j 0).val = win1_5.index t (0 : Fin 2) * 16000 + 1 * (j 0).val
      omega
    | ⟨1, _⟩ =>
      show win1_0.index t (1 : Fin 2) * 25 + 1 * k1.val = k1.val
      omega
  have hfirst : ∀ (k : Fin 128) (k1 : Fin 25), iblk1 V c 1 t (firstAt (unitAt j k) k1)
      = V c main_arg6 (Cert.ReferenceIdeal.Read.ridx_main_v1 (Cert.ReferenceIdeal.Read.lidx_main_v12 (((cfg1.win 5).blk t).view.emb j) k) k1) := fun k k1 => by
    show V c main_arg6 (((cfg1.win 1).blk t).view.emb (firstAt (unitAt j k) k1)) = _
    refine congrArg (V c main_arg6) (funext fun a => Fin.ext ?_)
    match a with
    | ⟨0, _⟩ =>
      show win1_1.index t (0 : Fin 2) * 25 + 1 * k1.val = k1.val
      omega
    | ⟨1, _⟩ =>
      show win1_1.index t (1 : Fin 2) * 128 + 1 * k.val = k.val
      omega
  have hb1 : ∀ k : Fin 128, iblk1 V c 2 t (biasAt (unitAt j k))
      = rowOf (V c main_v1) (Cert.ReferenceIdeal.Read.idx_main_v2 (Cert.ReferenceIdeal.Read.idx_main_v3 (Cert.ReferenceIdeal.Read.lidx_main_v12 (((cfg1.win 5).blk t).view.emb j) k))) := fun k => by
    show V c main_v1 (((cfg1.win 2).blk t).view.emb (biasAt (unitAt j k))) = V c main_v1 _
    refine congrArg (V c main_v1) (funext fun a => Fin.ext ?_)
    match a with
    | ⟨0, _⟩ =>
      show win1_2.index t (0 : Fin 2) * 1 + 1 * 0 = 0
      omega
    | ⟨1, _⟩ =>
      show win1_2.index t (1 : Fin 2) * 128 + 1 * k.val = k.val
      omega
  have hsecond : ∀ k : Fin 128, iblk1 V c 3 t (secondAt j k)
      = V c main_arg8 (Cert.ReferenceIdeal.Read.ridx_main_v12 (((cfg1.win 5).blk t).view.emb j) k) := fun k => by
    show V c main_arg8 (((cfg1.win 3).blk t).view.emb (secondAt j k)) = _
    refine congrArg (V c main_arg8) (funext fun a => Fin.ext ?_)
    match a with
    | ⟨0, _⟩ =>
      show win1_3.index t (0 : Fin 2) * 128 + 1 * k.val = k.val
      omega
    | ⟨1, _⟩ =>
      show win1_3.index t (1 : Fin 2) * 128 + 1 * (j 1).val = win1_5.index t (1 : Fin 2) * 128 + 1 * (j 1).val
      omega
  have hb2 : iblk1 V c 4 t (biasAt j)
      = rowOf (V c main_v2) (Cert.ReferenceIdeal.Read.idx_main_v13 (Cert.ReferenceIdeal.Read.idx_main_v14 (((cfg1.win 5).blk t).view.emb j))) := by
    show V c main_v2 (((cfg1.win 4).blk t).view.emb (biasAt j)) = V c main_v2 _
    refine congrArg (V c main_v2) (funext fun a => Fin.ext ?_)
    match a with
    | ⟨0, _⟩ =>
      show win1_4.index t (0 : Fin 2) * 1 + 1 * 0 = 0
      omega
    | ⟨1, _⟩ =>
      show win1_4.index t (1 : Fin 2) * 128 + 1 * (j 1).val = win1_5.index t (1 : Fin 2) * 128 + 1 * (j 1).val
      omega
  have swish_congr : ∀ (y y' : Ideal .f32), y = y' →
      FloatOps.mulf (F := Ideal) (φ := .f32) y (FloatOps.logistic (F := Ideal) (φ := .f32) y) = FloatOps.mulf (F := Ideal) (φ := .f32) y' (FloatOps.logistic (F := Ideal) (φ := .f32) y') := fun y y' h => by rw [h]
  have hhid : ∀ k : Fin 128, blockHiddenAt (iblk1 V c 0 t) (iblk1 V c 1 t) (iblk1 V c 2 t) (unitAt j k)
      = Cert.Stages.hiddenAt (V c main_arg1) (V c main_arg6) (rowOf (V c main_v1)) (Cert.ReferenceIdeal.Read.lidx_main_v12 (((cfg1.win 5).blk t).view.emb j) k) := fun k => by
    unfold blockHiddenAt Cert.Stages.hiddenAt
    refine swish_congr _ _ ?_
    refine congrArg₂ (FloatOps.addf (F := Ideal) (φ := .f32)) ?_ (hb1 k)
    exact Finset.sum_congr rfl fun k1 _ => by rw [hfeat k k1, hfirst k k1]
  refine congrArg₂ (FloatOps.addf (F := Ideal) (φ := .f32)) ?_ hb2
  exact Finset.sum_congr rfl fun k _ => by rw [hhid k, hsecond k]

/-- An index of the result array lies in point `t`'s block iff each coordinate lies in the block's range. -/
theorem mem_blk (t : Fin cfg1.N) (i : S1600000x128.Idx) :
    i ∈ ((cfg1.win 5).blk t).view.set ↔ ∀ a : Fin 2, win1_5.index t a * S16000x128.size a ≤ (i a).val ∧ (i a).val < win1_5.index t a * S16000x128.size a + S16000x128.size a := by
  show i ∈ ((View.whole main_v3).slice (win1_5.rect t)).set ↔ _
  rw [View.set_slice_whole, Rect.mem_set_unit]
  exact Iff.rfl

/-- Edge `e` of the result lies in the block of point `e / 16000`: the hundred blocks tile the array. -/
theorem cover (i : S1600000x128.Idx) :
    ∃ t : Fin cfg1.N, (cfg1.win 5).flush t = true ∧ i ∈ ((cfg1.win 5).blk t).view.set := by
  have hi0 : (i 0).val < 1600000 := (i 0).isLt
  have hi1 : (i 1).val < 128 := (i 1).isLt
  have hN : (i 0).val / 16000 < cfg1.N := by rw [show cfg1.N = 100 from N_1]; omega
  refine ⟨⟨(i 0).val / 16000, hN⟩, flush1_5 _, ?_⟩
  rw [mem_blk]
  obtain ⟨e0, e1, e2, e3, e4, e5, e6, e7, e8, e9, e10, e11⟩ := blockIndices ⟨(i 0).val / 16000, hN⟩
  have e10' : win1_5.index ⟨(i 0).val / 16000, hN⟩ (0 : Fin 2) = (i 0).val / 16000 := e10
  intro a
  match a with
  | ⟨0, _⟩ =>
    show win1_5.index ⟨(i 0).val / 16000, hN⟩ (0 : Fin 2) * 16000 ≤ (i 0).val ∧ (i 0).val < win1_5.index ⟨(i 0).val / 16000, hN⟩ (0 : Fin 2) * 16000 + 16000
    omega
  | ⟨1, _⟩ =>
    show win1_5.index ⟨(i 0).val / 16000, hN⟩ (1 : Fin 2) * 128 ≤ (i 1).val ∧ (i 1).val < win1_5.index ⟨(i 0).val / 16000, hN⟩ (1 : Fin 2) * 128 + 128
    omega

/-- The result array after the region: the filter stage of the five arrays as the region finds them. -/
theorem final (c : Dev nD) : (dat1 V c).arrAt 5 cfg1.N = filterOf V c :=
  (dat1 V c).arrAt_eq_of_cover 5 _ (fun t _ => flushed_eq V c t) cover

end Cert.KernelIdeal.Filter

end
-- ==== Proof.OutProj.lean ====
/-
  The third pallas_call: rows of the aggregated messages times the f2out weights, plus the bias row, through swish,
  ten blocks of 5000 rows each. At the extended reals the block's entry (r, q) is y · logistic y with y the sum over the
  contracted axis of the block's row r against the weights' column q, plus the bias' entry q (the bias is a [1, 128]
  array whose one row is broadcast down the block). Row r of the block at grid point t is row 5000·t + r of the
  array and the ten output blocks tile the result, so the result array is the reference's last stage of the three
  arrays the region finds, the [1, 128] bias read as its row.
-/
import proofs.«424306_j9216999817563_3_alg».proof.Proof.InProj
import proofs.«424306_j9216999817563_3_alg».proof.Proof.Stages
import proofs.«424306_j9216999817563_3_alg».proof.Proof.Rows

set_option maxRecDepth 16384

noncomputable section

namespace Cert.KernelIdeal.OutProj

open Cert.KernelIdeal Cert.KernelIdeal.Gen Idealize.ShloMosaic Idealize.ShloMosaic.TcCoe Idealize.SL.Sem
open Idealize.ShloMosaic.Pipeline (Dat Cfg Window)
open Cert.KernelIdeal.InProj (rowAt colAt zeroOffsets blockProduct_apply)
open Cert.Rows (rowOf)

/-- The bias' entry for the column of `j`. -/
abbrev biasAt (j : S5000x128.Idx) : S1x128.Idx := fun a => match a with
  | ⟨0, _⟩ => ⟨0, Nat.one_pos⟩
  | ⟨1, _⟩ => ⟨(j 1).val, (j 1).isLt⟩

/-- The body's stored value at an entry. -/
theorem outBlock_apply (x0 : Vec Ideal S5000x128 .f32) (x1 : Vec Ideal S128x128 .f32) (x2 : Vec Ideal S1x128 .f32) (j : S5000x128.Idx) :
    k2_pay1 (F := Ideal) x0 x1 x2 j
      = FloatOps.mulf (F := Ideal) (φ := .f32)
          (FloatOps.addf (F := Ideal) (φ := .f32) (∑ k : Fin 128, x0 (rowAt j k) * x1 (colAt j k)) (x2 (biasAt j)))
          (FloatOps.logistic (F := Ideal) (φ := .f32) (FloatOps.addf (F := Ideal) (φ := .f32) (∑ k : Fin 128, x0 (rowAt j k) * x1 (colAt j k)) (x2 (biasAt j)))) := by
  have hm : k0_pay1 (F := Ideal) x0 x1 j = ∑ k : Fin 128, x0 (rowAt j k) * x1 (colAt j k) := blockProduct_apply x0 x1 j
  have hb : broadcastTo S5000x128 (shapeCast S1x128 x2 shapeCasts_S1x128_S1x128) broadcasts_S1x128_S5000x128 j = x2 (biasAt j) := by
    rw [shapeCast_self]
    exact broadcastTo_apply x2 broadcasts_S1x128_S5000x128 j (biasAt j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])
  unfold k2_pay1
  show FloatOps.mulf (F := Ideal) (φ := .f32)
      (FloatOps.addf (F := Ideal) (φ := .f32) (k0_pay1 (F := Ideal) (shapeCast S5000x128 x0 shapeCasts_S5000x128_S5000x128) x1 j)
        (broadcastTo S5000x128 (shapeCast S1x128 x2 shapeCasts_S1x128_S1x128) broadcasts_S1x128_S5000x128 j))
      (FloatOps.logistic (F := Ideal) (φ := .f32) (FloatOps.addf (F := Ideal) (φ := .f32) (k0_pay1 (F := Ideal) (shapeCast S5000x128 x0 shapeCasts_S5000x128_S5000x128) x1 j)
        (broadcastTo S5000x128 (shapeCast S1x128 x2 shapeCasts_S1x128_S1x128) broadcasts_S1x128_S5000x128 j))) = _
  rw [shapeCast_self, hm, hb]

/-! ## From the blocks to the array -/

variable (V : (c : Dev nD) → (b : Ref sig .tc) → Buf (Elt Ideal) ((c : Thread nD τ).loc b))

/-- The printed index maps over the grid: the messages' and the result's blocks are block row `t`, the weights'
    and the bias' blocks are the whole arrays. -/
theorem blockIndices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the last stage of the arrays the region finds. -/
theorem flushed_eq (c : Dev nD) (t : Fin cfg2.N) :
    (dat2 V c).flushed 3 t = ((cfg2.win 3).blk t).view.read (Elt Ideal)
      (Cert.Stages.outStage (F := Ideal) (V c main_v29) (V c main_arg10) (rowOf (V c main_v30))) := by
  show (cfg2.win 3).cut (grid2.coords t) ((dat2 V c).after 3 t) = _
  rw [after2_3]
  unfold out2_3
  rw [View.canon_unit_zero zeroOffsets]
  simp only [View.ld_unit_zero (S := S5000x128) zeroOffsets, View.ld_unit_zero (S := S128x128) zeroOffsets,
    View.ld_unit_zero (S := S1x128) zeroOffsets]
  funext j
  show k2_pay1 (F := Ideal) (iblk2 V c 0 t) (iblk2 V c 1 t) (iblk2 V c 2 t) j
    = Cert.Stages.outStage (F := Ideal) (V c main_v29) (V c main_arg10) (rowOf (V c main_v30)) (((cfg2.win 3).blk t).view.emb j)
  refine (outBlock_apply (iblk2 V c 0 t) (iblk2 V c 1 t) (iblk2 V c 2 t) j).trans ?_
  refine Eq.trans ?_ (Cert.Stages.outStage_apply (V c main_v29) (V c main_arg10) (rowOf (V c main_v30)) (((cfg2.win 3).blk t).view.emb j)).symm
  obtain ⟨e0, e1, e2, e3, e4, e5, e6, e7⟩ := blockIndices t
  have h0 : ∀ k : Fin 128, iblk2 V c 0 t (rowAt j k)
      = V c main_v29 (Cert.ReferenceIdeal.Read.lidx_main_v0 (((cfg2.win 3).blk t).view.emb j) k) := fun k => by
    show V c main_v29 (((cfg2.win 0).blk t).view.emb (rowAt j k)) = _
    refine congrArg (V c main_v29) (funext fun a => Fin.ext ?_)
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 128 + 1 * k.val = k.val
      omega
  have h1 : ∀ k : Fin 128, iblk2 V c 1 t (colAt j k)
      = V c main_arg10 (Cert.ReferenceIdeal.Read.ridx_main_v0 (((cfg2.win 3).blk t).view.emb j) k) := fun k => by
    show V c main_arg10 (((cfg2.win 1).blk t).view.emb (colAt j k)) = _
    refine congrArg (V c main_arg10) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_3.index t (1 : Fin 2) * 128 + 1 * (j 1).val
      omega
  have h2 : iblk2 V c 2 t (biasAt j)
      = rowOf (V c main_v30) (Cert.ReferenceIdeal.Read.idx_main_v42 (Cert.ReferenceIdeal.Read.idx_main_v43 (((cfg2.win 3).blk t).view.emb j))) := by
    show V c main_v30 (((cfg2.win 2).blk t).view.emb (biasAt j)) = V c main_v30 _
    refine congrArg (V c main_v30) (funext fun a => Fin.ext ?_)
    match a with
    | ⟨0, _⟩ =>
      show win2_2.index t (0 : Fin 2) * 1 + 1 * 0 = 0
      omega
    | ⟨1, _⟩ =>
      show win2_2.index t (1 : Fin 2) * 128 + 1 * (j 1).val = win2_3.index t (1 : Fin 2) * 128 + 1 * (j 1).val
      omega
  have swish_congr : ∀ (y y' : Ideal .f32), y = y' →
      FloatOps.mulf (F := Ideal) (φ := .f32) y (FloatOps.logistic (F := Ideal) (φ := .f32) y) = FloatOps.mulf (F := Ideal) (φ := .f32) y' (FloatOps.logistic (F := Ideal) (φ := .f32) y') := fun y y' h => by rw [h]
  refine swish_congr _ _ ?_
  refine congrArg₂ (FloatOps.addf (F := Ideal) (φ := .f32)) ?_ h2
  exact Finset.sum_congr rfl fun k _ => by rw [h0 k, h1 k]

/-- An index of the result array lies in point `t`'s block iff each coordinate lies in the block's range. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v31).slice (win2_3.rect t)).set ↔ _
  rw [View.set_slice_whole, Rect.mem_set_unit]
  exact Iff.rfl

/-- Row `r` of the result lies in the block of point `r / 5000`: the ten blocks tile the array. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : (i 0).val / 5000 < cfg2.N := by rw [show cfg2.N = 10 from N_2]; omega
  refine ⟨⟨(i 0).val / 5000, hN⟩, flush2_3 _, ?_⟩
  rw [mem_blk]
  obtain ⟨e0, e1, e2, e3, e4, e5, e6, e7⟩ := blockIndices ⟨(i 0).val / 5000, hN⟩
  have e6' : win2_3.index ⟨(i 0).val / 5000, hN⟩ (0 : Fin 2) = (i 0).val / 5000 := e6
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    omega
  | ⟨1, _⟩ =>
    show win2_3.index ⟨(i 0).val / 5000, hN⟩ (1 : Fin 2) * 128 ≤ (i 1).val ∧ (i 1).val < win2_3.index ⟨(i 0).val / 5000, hN⟩ (1 : Fin 2) * 128 + 128
    omega

/-- The result array after the region: the last stage of the three arrays as the region finds them. -/
theorem final (c : Dev nD) :
    (dat2 V c).arrAt 3 cfg2.N = Cert.Stages.outStage (F := Ideal) (V c main_v29) (V c main_arg10) (rowOf (V c main_v30)) :=
  (dat2 V c).arrAt_eq_of_cover 3 _ (fun t _ => flushed_eq V c t) cover

end Cert.KernelIdeal.OutProj

end
-- ==== Proof.Boundaries.lean ====
/-
  What the TensorCore's buffers hold at the boundaries between the three pallas_calls and the host operations among
  them, at the buffers the later steps read. No region and no host operation writes an argument array, so every
  argument is read back to the launch memory; the two biases of the filter network and the bias of the last stage
  reach their kernels reshaped to [1, 128], whose row is the bias; the in2f product is not touched between the
  first region and the gather; and the host operations between the second and the third region — the cosine cutoff of
  rij, the wrap of negative source indices, the gather, the two products, the scatter-add into zeros — are, operation
  for operation, the reference's edge stage applied to the first region's result, the second region's result
  widened to f32, and the three edge inputs.
-/
import proofs.«424306_j9216999817563_3_alg».proof.Proof.Gen.KernelIdeal.Frame
import proofs.«424306_j9216999817563_3_alg».proof.Proof.Stages
import proofs.«424306_j9216999817563_3_alg».proof.Proof.Rows
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo
open Cert.Rows (rowOf)

variable (m : (ℓ : Loc nD τ sig) → Buf (Elt Ideal) ℓ) (ρ : Dev nD → PrngReg) (c : Dev nD)

/-! ## Into the second region -/

theorem V2_main_arg1 : V2 m ρ c main_arg1 = m ((c : Thread nD τ).loc main_arg1) := by
  show StableHlo.after hostOps1 (W1 m ρ c) (Proc.devRef .tc main_arg1) = _
  after_results
  exact (W1_of_ne m ρ c main_arg1 (by decide)).trans rfl

theorem V2_main_arg6 : V2 m ρ c main_arg6 = m ((c : Thread nD τ).loc main_arg6) := by
  show StableHlo.after hostOps1 (W1 m ρ c) (Proc.devRef .tc main_arg6) = _
  after_results
  exact (W1_of_ne m ρ c main_arg6 (by decide)).trans rfl

theorem V2_main_arg8 : V2 m ρ c main_arg8 = m ((c : Thread nD τ).loc main_arg8) := by
  show StableHlo.after hostOps1 (W1 m ρ c) (Proc.devRef .tc main_arg8) = _
  after_results
  exact (W1_of_ne m ρ c main_arg8 (by decide)).trans rfl

/-- The first bias reaches the filter kernel reshaped to [1, 128]: its row is the bias. -/
theorem V2_bias1 : rowOf (V2 m ρ c main_v1) = m ((c : Thread nD τ).loc main_arg7) := by
  have h : V2 m ρ c main_v1 = shapeCast S1x128 (W1 m ρ c (Proc.devRef .tc main_arg7)) shapeCasts_S128_S1x128 := by
    show StableHlo.after hostOps1 (W1 m ρ c) (Proc.devRef .tc main_v1) = _
    after_results
    rfl
  rw [h, Cert.Rows.rowOf_shapeCast]
  exact (W1_of_ne m ρ c main_arg7 (by decide)).trans rfl

/-- The second bias likewise. -/
theorem V2_bias2 : rowOf (V2 m ρ c main_v2) = m ((c : Thread nD τ).loc main_arg9) := by
  have h : V2 m ρ c main_v2 = shapeCast S1x128 (W1 m ρ c (Proc.devRef .tc main_arg9)) shapeCasts_S128_S1x128 := by
    show StableHlo.after hostOps1 (W1 m ρ c) (Proc.devRef .tc main_v2) = _
    after_results
    rfl
  rw [h, Cert.Rows.rowOf_shapeCast]
  exact (W1_of_ne m ρ c main_arg9 (by decide)).trans rfl

/-! ## After the second region -/

theorem W3_main_arg2 : W3 m ρ c (Proc.devRef .tc main_arg2) = m ((c : Thread nD τ).loc main_arg2) := by
  refine (W3_of_ne m ρ c main_arg2 (by decide)).trans ?_
  show StableHlo.after hostOps1 (W1 m ρ c) (Proc.devRef .tc main_arg2) = _
  after_results
  exact (W1_of_ne m ρ c main_arg2 (by decide)).trans rfl

theorem W3_main_arg3 : W3 m ρ c (Proc.devRef .tc main_arg3) = m ((c : Thread nD τ).loc main_arg3) := by
  refine (W3_of_ne m ρ c main_arg3 (by decide)).trans ?_
  show StableHlo.after hostOps1 (W1 m ρ c) (Proc.devRef .tc main_arg3) = _
  after_results
  exact (W1_of_ne m ρ c main_arg3 (by decide)).trans rfl

theorem W3_main_arg4 : W3 m ρ c (Proc.devRef .tc main_arg4) = m ((c : Thread nD τ).loc main_arg4) := by
  refine (W3_of_ne m ρ c main_arg4 (by decide)).trans ?_
  show StableHlo.after hostOps1 (W1 m ρ c) (Proc.devRef .tc main_arg4) = _
  after_results
  exact (W1_of_ne m ρ c main_arg4 (by decide)).trans rfl

theorem W3_main_arg10 : W3 m ρ c (Proc.devRef .tc main_arg10) = m ((c : Thread nD τ).loc main_arg10) := by
  refine (W3_of_ne m ρ c main_arg10 (by decide)).trans ?_
  show StableHlo.after hostOps1 (W1 m ρ c) (Proc.devRef .tc main_arg10) = _
  after_results
  exact (W1_of_ne m ρ c main_arg10 (by decide)).trans rfl

theorem W3_main_arg11 : W3 m ρ c (Proc.devRef .tc main_arg11) = m ((c : Thread nD τ).loc main_arg11) := by
  refine (W3_of_ne m ρ c main_arg11 (by decide)).trans ?_
  show StableHlo.after hostOps1 (W1 m ρ c) (Proc.devRef .tc main_arg11) = _
  after_results
  exact (W1_of_ne m ρ c main_arg11 (by decide)).trans rfl

/-- The in2f product is as the first region left it. -/
theorem W3_main_v0 : W3 m ρ c (Proc.devRef .tc main_v0) = W1 m ρ c (Proc.devRef .tc main_v0) := by
  refine (W3_of_ne m ρ c main_v0 (by decide)).trans ?_
  show StableHlo.after hostOps1 (W1 m ρ c) (Proc.devRef .tc main_v0) = _
  after_results

/-! ## Into the third region -/

theorem V4_main_arg10 : V4 m ρ c main_arg10 = m ((c : Thread nD τ).loc main_arg10) := by
  show StableHlo.after hostOps2 (W3 m ρ c) (Proc.devRef .tc main_arg10) = _
  after_results_simp
  exact W3_main_arg10 m ρ c

/-- The last bias reaches the third kernel reshaped to [1, 128]: its row is the bias. -/
theorem V4_bias : rowOf (V4 m ρ c main_v30) = m ((c : Thread nD τ).loc main_arg11) := by
  have h : V4 m ρ c main_v30 = shapeCast S1x128 (W3 m ρ c (Proc.devRef .tc main_arg11)) shapeCasts_S128_S1x128 := by
    show StableHlo.after hostOps2 (W3 m ρ c) (Proc.devRef .tc main_v30) = _
    after_results_simp
    rfl
  rw [h, Cert.Rows.rowOf_shapeCast]
  exact W3_main_arg11 m ρ c

/-- The host operations between the second and the third region are the reference's edge stage. -/
theorem V4_edges : V4 m ρ c main_v29
    = Cert.Stages.edgeStage (F := Ideal) (W3 m ρ c (Proc.devRef .tc main_v0))
        (extf (F := Ideal) .f32 (W3 m ρ c (Proc.devRef .tc main_v3)) bitsLt_bf16_f32)
        (W3 m ρ c (Proc.devRef .tc main_arg2)) (W3 m ρ c (Proc.devRef .tc main_arg3)) (W3 m ρ c (Proc.devRef .tc main_arg4)) := by
  show StableHlo.after hostOps2 (W3 m ρ c) (Proc.devRef .tc main_v29) = _
  after_results_simp
  generalize W3 m ρ c (Proc.devRef .tc main_v0) = x
  generalize W3 m ρ c (Proc.devRef .tc main_v3) = w
  generalize W3 m ρ c (Proc.devRef .tc main_arg2) = rij
  generalize W3 m ρ c (Proc.devRef .tc main_arg3) = src
  generalize W3 m ρ c (Proc.devRef .tc main_arg4) = dst
  unfold Cert.Stages.edgeStage Cert.ReferenceIdeal.Read.val_main_v39 Cert.ReferenceIdeal.Read.val_main_v38 Cert.ReferenceIdeal.Read.val_main_cst_6 Cert.ReferenceIdeal.Read.val_main_v36 Cert.ReferenceIdeal.Read.val_main_v35 Cert.ReferenceIdeal.Read.val_main_v26
    Cert.ReferenceIdeal.Read.val_main_v25 Cert.ReferenceIdeal.Read.val_main_v24 Cert.ReferenceIdeal.Read.val_main_v23 Cert.ReferenceIdeal.Read.val_main_cst_4 Cert.ReferenceIdeal.Read.val_main_v22 Cert.ReferenceIdeal.Read.val_main_v21 Cert.ReferenceIdeal.Read.val_main_cst_3
    Cert.ReferenceIdeal.Read.val_main_v20 Cert.ReferenceIdeal.Read.val_main_v19 Cert.ReferenceIdeal.Read.val_main_cst_2 Cert.ReferenceIdeal.Read.val_main_v18 Cert.ReferenceIdeal.Read.val_main_v17 Cert.ReferenceIdeal.Read.val_main_v16 Cert.ReferenceIdeal.Read.val_main_cst_1
    Cert.ReferenceIdeal.Read.val_main_v32 Cert.ReferenceIdeal.Read.val_main_v31 Cert.ReferenceIdeal.Read.val_main_v30 Cert.ReferenceIdeal.Read.val_main_v29 Cert.ReferenceIdeal.Read.val_main_c_5 Cert.ReferenceIdeal.Read.val_main_v28 Cert.ReferenceIdeal.Read.val_main_v27 Cert.ReferenceIdeal.Read.val_main_c
  rfl

end Cert.KernelIdeal.Boundaries

end
-- ==== Proof.Result.lean ====
/-
  The kernel program's result array through the stages. The first region leaves the in2f product of the features and
  the in2f weights; the second the filter stage of the radial basis features, the two weight matrices and the two
  biases (its [1, 128] bias arrays are the biases reshaped, and its bf16 result widened back to f32 is the stage
  itself, both casts being the identity at the extended reals); the host operations in between are the edge stage of
  those two arrays and the three edge inputs; and the third region leaves the last stage of the edge stage's result,
  the f2out weights and the last bias. So the result array is the composition of the four stages of the twelve
  argument arrays — the same composition the reference's result unfolds to.
-/
import proofs.«424306_j9216999817563_3_alg».proof.Proof.InProj
import proofs.«424306_j9216999817563_3_alg».proof.Proof.Filter
import proofs.«424306_j9216999817563_3_alg».proof.Proof.OutProj
import proofs.«424306_j9216999817563_3_alg».proof.Proof.Boundaries

set_option maxRecDepth 16384

noncomputable section

namespace Cert.KernelIdeal.Result

open Cert.KernelIdeal Cert.KernelIdeal.Gen Idealize.ShloMosaic Idealize.ShloMosaic.TcCoe Idealize.SL.Sem
open Cert.Rows (rowOf)

variable (m : (ℓ : Loc nD τ sig) → Buf (Elt Ideal) ℓ) (ρ : Dev nD → PrngReg) (c : Dev nD)

/-- After the first region the result buffer of that region holds the in2f product. -/
theorem inproj_eq : W1 m ρ c (Proc.devRef .tc main_v0)
    = Cert.ReferenceIdeal.Read.val_main_v0 (F := Ideal) (m ((c : Thread nD τ).loc main_arg0)) (m ((c : Thread nD τ).loc main_arg5)) :=
  (W1_arr m ρ c 2).trans (Cert.KernelIdeal.InProj.final (V0 m ρ) c)

/-- After the second region its result, widened to f32, is the filter stage of the arguments. -/
theorem filter_eq : extf (F := Ideal) .f32 (W3 m ρ c (Proc.devRef .tc main_v3)) bitsLt_bf16_f32
    = Cert.ReferenceIdeal.Read.val_main_v15 (F := Ideal) (m ((c : Thread nD τ).loc main_arg1)) (m ((c : Thread nD τ).loc main_arg6)) (m ((c : Thread nD τ).loc main_arg7)) (m ((c : Thread nD τ).loc main_arg8)) (m ((c : Thread nD τ).loc main_arg9)) := by
  have h : W3 m ρ c (Proc.devRef .tc main_v3) = Cert.KernelIdeal.Filter.filterOf (V2 m ρ) c :=
    (W3_arr m ρ c 5).trans (Cert.KernelIdeal.Filter.final (V2 m ρ) c)
  rw [h]
  unfold Cert.KernelIdeal.Filter.filterOf
  rw [Boundaries.V2_main_arg1, Boundaries.V2_main_arg6, Boundaries.V2_bias1, Boundaries.V2_main_arg8, Boundaries.V2_bias2]
  rfl

/-- The result array at the end of @main: the four stages composed, of the argument arrays. -/
theorem result_eq : W5 m ρ c (Proc.devRef .tc main_v31)
    = Cert.Stages.outStage (F := Ideal)
        (Cert.Stages.edgeStage (F := Ideal)
          (Cert.ReferenceIdeal.Read.val_main_v0 (F := Ideal) (m ((c : Thread nD τ).loc main_arg0)) (m ((c : Thread nD τ).loc main_arg5)))
          (Cert.ReferenceIdeal.Read.val_main_v15 (F := Ideal) (m ((c : Thread nD τ).loc main_arg1)) (m ((c : Thread nD τ).loc main_arg6)) (m ((c : Thread nD τ).loc main_arg7)) (m ((c : Thread nD τ).loc main_arg8)) (m ((c : Thread nD τ).loc main_arg9)))
          (m ((c : Thread nD τ).loc main_arg2)) (m ((c : Thread nD τ).loc main_arg3)) (m ((c : Thread nD τ).loc main_arg4)))
        (m ((c : Thread nD τ).loc main_arg10)) (m ((c : Thread nD τ).loc main_arg11)) := by
  refine (W5_arr m ρ c 3).trans ((Cert.KernelIdeal.OutProj.final (V4 m ρ) c).trans ?_)
  rw [Boundaries.V4_edges, Boundaries.V4_main_arg10, Boundaries.V4_bias, Boundaries.W3_main_v0, inproj_eq, filter_eq,
    Boundaries.W3_main_arg2, Boundaries.W3_main_arg3, Boundaries.W3_main_arg4]

end Cert.KernelIdeal.Result

end
-- ==== Proof.lean ====
/-
  SchNet's continuous-filter convolution: x = feat · W_in2f; Wf = swish(fij · W_f1 + b_f1) · W_f2 + b_f2; the messages
  x[src] · Wf · C with C the cosine cutoff of rij, summed at dst; out = swish(agg · W_out + b_out). The kernel program runs
  the three matrix stages as pallas_calls over row blocks (bf16 operands, f32 accumulation) and the gather, the cutoff
  and the scatter-add as host operations; the reference runs everything on the host. At the extended reals a change of
  float format is the identity and a block product into a zero accumulator is the plain sum, so each region's result
  array is the reference's own stage of the arrays the region reads (Proof/InProj, Proof/Filter, Proof/OutProj over
  Proof/Stages and Proof/FilterStage), the host operations between are the reference's edge stage word for word
  (Proof/Boundaries), and the kernel's logistic is the reference's 1 / (1 + e^(-y)). The two results are therefore one
  composition of stages of the argument arrays (Proof/Result), on every extended real: the finiteness of the inputs is
  not used. The three frames are the generated ones (the reference's from its generated run), and the idealization
  rewrote nothing, so `preserves` is trivial.
-/
import proofs.«424306_j9216999817563_3_alg».proof.Defs
import proofs.«424306_j9216999817563_3_alg».proof.Proof.Gen.Kernel
import proofs.«424306_j9216999817563_3_alg».proof.Proof.Gen.Kernel.Frame
import proofs.«424306_j9216999817563_3_alg».proof.Proof.Gen.KernelIdeal
import proofs.«424306_j9216999817563_3_alg».proof.Proof.Gen.KernelIdeal.Frame
import proofs.«424306_j9216999817563_3_alg».proof.Proof.Gen.ReferenceIdeal
import proofs.«424306_j9216999817563_3_alg».proof.Proof.Gen.ReferenceIdeal.Run
import proofs.«424306_j9216999817563_3_alg».proof.Proof.Gen.ReferenceIdeal.Read
import proofs.«424306_j9216999817563_3_alg».proof.Proof.Gen.Pre_finite_inputs
import proofs.«424306_j9216999817563_3_alg».proof.Proof.KernelValueRun
import proofs.«424306_j9216999817563_3_alg».proof.Proof.Stages
import proofs.«424306_j9216999817563_3_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at the same composition of stages of arguments that agree. -/
theorem algebraic : Cert.algebraic_KernelIdeal_ReferenceIdeal := by
  intro m ρ m' ρ' _ hagree
  refine ⟨fun c => Cert.KernelIdeal.Gen.W5 m ρ c (Proc.devRef .tc Cert.KernelIdeal.main_v31),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v51_eq, Cert.Stages.result_eq_stages, h0, h1, h2, h3, h4, h5, h6, h7, h8, h9, h10, h11]
  exact (Cert.KernelIdeal.Result.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
